-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2 : Shape := ⟨3, ![8, 2048, 2]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel

variable [Facts]

def fn {F : FTy → Type} [FloatOps F] (main_arg0 : FVec F S8x2048x2 .f32) (main_arg1 : FVec F S8x2048x2 .f32) : IVec S_ 1 :=
  let main_v0 : FVec F S8x2048x2 .f32 := Host.absf main_arg0
  let main_cst : FVec F S_ .f32 := constant S_ .f32 0x7F800000#32
  let main_v1 : FVec F S8x2048x2 .f32 := broadcastInDim S8x2048x2 ![] bcast_S_S8x2048x2 main_cst
  let main_v2 : IVec S8x2048x2 1 := cmpf .olt main_v0 main_v1
  let main_c : IVec S_ 1 := constantI S_ 1 1#1
  let main_v3 : IVec S_ 1 := (fun x v => Host.reduce IntOp.andi x v reducesTo_S8x2048x2_S_d0_1_2 h_S_) main_v2 main_c
  let main_v4 : FVec F S8x2048x2 .f32 := Host.absf main_arg1
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  main_v8
-- ==== Kernel.lean ====
abbrev S8x2048x2 : Shape := ⟨3, ![8, 2048, 2]⟩
abbrev S8x2048 : Shape := ⟨2, ![8, 2048]⟩
abbrev S8x256x2 : Shape := ⟨3, ![8, 256, 2]⟩
abbrev S8x256 : Shape := ⟨2, ![8, 256]⟩
abbrev S8x256x1 : Shape := ⟨3, ![8, 256, 1]⟩
abbrev S8x512x2 : Shape := ⟨3, ![8, 512, 2]⟩
abbrev S8x512x1 : Shape := ⟨3, ![8, 512, 1]⟩
abbrev S8x512 : Shape := ⟨2, ![8, 512]⟩
abbrev S8x1x256 : Shape := ⟨3, ![8, 1, 256]⟩
abbrev S8x512x256 : Shape := ⟨3, ![8, 512, 256]⟩
abbrev S_ : Shape := ⟨0, ![]⟩
abbrev S8 : Shape := ⟨1, ![8]⟩

abbrev nBuf : Space → Nat
  | .hbm => 22
  | .vmem => 6
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S8x2048x2, .f32⟩
  | .local _ .vmem, ⟨1, _⟩ => ⟨S8x256x2, .f32⟩
  | .local _ .vmem, ⟨2, _⟩ => ⟨S8x256x2, .f32⟩
  | .local _ .vmem, ⟨3, _⟩ => ⟨S8x2048, .f32⟩
  | .local _ .vmem, ⟨4, _⟩ => ⟨S8x256, .f32⟩
  | .local _ .vmem, ⟨5, _⟩ => ⟨S8x256, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_3 : BitVec 32 := 0#32
  let c4_i32 : BitVec 32 := 4#32
  let v9 : BitVec 32 := Scalar.addi c0_i32_3 c4_i32
  let c1_i32 : BitVec 32 := 1#32
  ⟨c0_i32_3, v9, c1_i32⟩
def k0_mult1 (k0_t1 : Fin k0_t1_loop.trips) : BitVec 32 :=
  let c0_i32_3 : BitVec 32 := 0#32
  let c1_i32 : BitVec 32 := 1#32
  let arg5 : BitVec 32 := Scf.iv c0_i32_3 c1_i32 k0_t1
  let c512_i32 : BitVec 32 := 512#32
  let v12 : BitVec 32 := Scalar.muli arg5 c512_i32
  v12
def k0_off1 (k0_t1 : Fin k0_t1_loop.trips) : Fin 3 → Nat :=
  let c0_7 : Index := 0#32
  let c0_i32_3 : BitVec 32 := 0#32
  let c1_i32 : BitVec 32 := 1#32
  let arg5 : BitVec 32 := Scf.iv c0_i32_3 c1_i32 k0_t1
  let c512_i32 : BitVec 32 := 512#32
  let v12 : BitVec 32 := Scalar.muli arg5 c512_i32
  let v13 : BitVec 32 := v12
  let v14 : Index := Scalar.indexCast v13
  let c0_8 : Index := 0#32
  ![0, v14.toNat, 0]
def k0_off2 (k0_t1 : Fin k0_t1_loop.trips) : Fin 2 → Nat :=
  let c0_9 : Index := 0#32
  let c0_i32_3 : BitVec 32 := 0#32
  let c1_i32 : BitVec 32 := 1#32
  let arg5 : BitVec 32 := Scf.iv c0_i32_3 c1_i32 k0_t1
  let c512_i32 : BitVec 32 := 512#32
  let v12 : BitVec 32 := Scalar.muli arg5 c512_i32
  let v13 : BitVec 32 := v12
  let v34 : Index := Scalar.indexCast v13
  ![0, v34.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x2048_S8x2048_0_0 : ∀ a, (![0, 0] : Fin 2 → Nat) a + S8x2048.size a ≤ S8x2048.size a
  h_S8x2048 : 0 < S8x2048.numel
  inb_S8x256x2_S8x256x2_0_0_0 : ∀ a, (![0, 0, 0] : Fin 3 → Nat) a + S8x256x2.size a ≤ S8x256x2.size a
  h_S8x256x2 : 0 < S8x256x2.numel
  slices_S8x256x2_o0_0_0_S8x256x1 : S8x256x2.Slices ![0, 0, 0] S8x256x1
  shapeCasts_S8x256x1_S8x256 : S8x256x1.ShapeCasts S8x256
  slices_S8x256x2_o0_0_1_S8x256x1 : S8x256x2.Slices ![0, 0, 1] S8x256x1
  h_S8x512x2 : 0 < S8x512x2.numel
  slices_S8x512x2_o0_0_0_S8x512x1 : S8x512x2.Slices ![0, 0, 0] S8x512x1
  shapeCasts_S8x512x1_S8x512 : S8x512x1.ShapeCasts S8x512
  slices_S8x512x2_o0_0_1_S8x512x1 : S8x512x2.Slices ![0, 0, 1] S8x512x1
  shapeCasts_S8x512_S8x512x1 : S8x512.ShapeCasts S8x512x1
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  h_S8x512 : 0 < S8x512.numel
  shapeCasts_S8x512_S8x512 : S8x512.ShapeCasts S8x512
  reduces_S8x512x256_S8x512 : S8x512x256.Reduces [2] S8x512
  reduces_S8x512x256_S8x256 : S8x512x256.Reduces [1] S8x256
  inb_S8x256_S8x256_0_0 : ∀ a, (![0, 0] : Fin 2 → Nat) a + S8x256.size a ≤ S8x256.size a
  h_S8x256 : 0 < S8x256.numel
  reducesTo_S8x2048_S8_d1 : S8x2048.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S8x512x2.size a ≤ S8x2048x2.size a
  k0_off2_inb : ∀ k0_t1 : Fin k0_t1_loop.trips, ∀ a, (k0_off2 k0_t1) a + S8x512.size a ≤ S8x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x2048x2.size a ≤ S8x2048x2.size a
  hwx0_0 : ∀ i : grid0.Coords, EltTy.bits .f32 = 32 ∨ (Rect.block (s := S8x2048x2) S8x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x2.size a ≤ S8x2048x2.size a
  hwx0_1 : ∀ i : grid0.Coords, EltTy.bits .f32 = 32 ∨ (Rect.block (s := S8x2048x2) S8x256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .f32 = 32 ∨ (Rect.block (s := S8x2048) S8x256.size (cc0_transform_3 i) (hinb0_3 i)).WholeWords (EltTy.packing .f32)

variable [Facts₀]

abbrev win0_0 : Pipeline.Window sig grid0 :=
  Pipeline.Window.ofSpec (Memref.whole main_arg0) S8x2048x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2 : Shape := ⟨3, ![8, 2048, 2]⟩
abbrev S8x2048x1x2 : Shape := ⟨4, ![8, 2048, 1, 2]⟩
abbrev S8x1x2048x2 : Shape := ⟨4, ![8, 1, 2048, 2]⟩
abbrev S8x2048x2048x2 : Shape := ⟨4, ![8, 2048, 2048, 2]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2048x1x2, .f32⟩
  | .hbm, ⟨3, _⟩ => ⟨S8x1x2048x2, .f32⟩
  | .hbm, ⟨4, _⟩ => ⟨S8x2048x2048x2, .f32⟩
  | .hbm, ⟨5, _⟩ => ⟨S8x2048x2048x2, .f32⟩
  | .hbm, ⟨6, _⟩ => ⟨S8x2048x2048x2, .f32⟩
  | .hbm, ⟨7, _⟩ => ⟨S8x2048x2048x2, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S8x2048x2_S8x2048x1x2_0_1_3 : S8x2048x2.BroadcastsInDim S8x2048x1x2 (![0, 1, 3] : Fin 3 → Fin S8x2048x1x2.rank)
  bcast_S8x2048x2_S8x1x2048x2_0_2_3 : S8x2048x2.BroadcastsInDim S8x1x2048x2 (![0, 2, 3] : Fin 3 → Fin S8x1x2048x2.rank)
  bcast_S8x2048x1x2_S8x2048x2048x2_0_1_2_3 : S8x2048x1x2.BroadcastsInDim S8x2048x2048x2 (![0, 1, 2, 3] : Fin 4 → Fin S8x2048x2048x2.rank)
  bcast_S8x1x2048x2_S8x2048x2048x2_0_1_2_3 : S8x1x2048x2.BroadcastsInDim S8x2048x2048x2 (![0, 1, 2, 3] : Fin 4 → Fin S8x2048x2048x2.rank)
  reducesTo_S8x2048x2048x2_S8x2048x2048_d3 : S8x2048x2048x2.ReducesTo [3] S8x2048x2048
  h_S_ : 0 < S_.numel
  reducesTo_S8x2048x2048_S8x2048_d2 : S8x2048x2048.ReducesTo [2] S8x2048
  reducesTo_S8x2048x2048_S8x2048_d1 : S8x2048x2048.ReducesTo [1] S8x2048
  reducesTo_S8x2048_S8_d1 : S8x2048.ReducesTo [1] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Spec.lean ====
/-
  The Chamfer distance between two clouds of 2048 points in the plane, for a batch of 8, over the extended reals.

  For a batch entry b, a point n of the first cloud P and a point m of the second cloud Q,
  d(b, n, m) = sqrt ((P(b,n,0) - Q(b,m,0))^2 + (P(b,n,1) - Q(b,m,1))^2).  Every point of P looks for its nearest point
  of Q, nearP(b, n) = inf over m of d(b, n, m), and every point of Q for its nearest point of P,
  nearQ(b, m) = inf over n of d(b, n, m).  An infimum over a finite range is taken in the complete lattice of the
  extended reals: it starts from the top element, +infinity.

  This file fixes these functions, and the lattice facts by which an infimum over a range of T * B indices is built up
  block of B indices by block of B indices.
-/
import Idealize.ShloMosaic.PureOps.Ideal
import Idealize.ShloMosaic.Lib.ValueIdx

noncomputable section

namespace Cert.Chamfer

open Idealize.ShloMosaic Idealize.ShloMosaic.ValueIdx

/-- A cloud array: batch × point × coordinate. -/
abbrev Pts : Shape := ⟨3, ![8, 2048, 2]⟩
/-- A nearest-distance array: batch × point. -/
abbrev Mat : Shape := ⟨2, ![8, 2048]⟩

/-- The Euclidean distance of the points (p0, p1) and (q0, q1) of the plane. -/
def dist2 (p0 p1 q0 q1 : EReal) : EReal :=
  Ideal.sqrt ((p0 - q0) * (p0 - q0) + (p1 - q1) * (p1 - q1))

/-- d(b, n, m): the distance of point n of P and point m of Q in batch entry b. -/
def dist (P Q : Pts.Idx → EReal) (b : Fin 8) (n m : Fin 2048) : EReal :=
  dist2 (P (ix3 b n 0)) (P (ix3 b n 1)) (Q (ix3 b m 0)) (Q (ix3 b m 1))

/-- nearP(b, n): the distance from point n of P to its nearest point of Q. -/
def nearP (P Q : Pts.Idx → EReal) : Mat.Idx → EReal :=
  fun j => Finset.univ.inf fun m : Fin 2048 => dist P Q (j 0) (j 1) m

/-- nearQ(b, m): the distance from point m of Q to its nearest point of P. -/
def nearQ (P Q : Pts.Idx → EReal) : Mat.Idx → EReal :=
  fun j => Finset.univ.inf fun n : Fin 2048 => dist P Q (j 0) n (j 1)

/-- The f32 pattern of +infinity denotes the top element. -/
theorem ofBits_posInf : Ideal.ofBits .f32 0x7F800000#32 = (⊤ : EReal) := by
  simp [Ideal.ofBits, Ideal.ieee]

/-- A fold of `min` from the top element over a finite range is the infimum over the range. -/
theorem fold_min_top {ι : Type*} (s : Finset ι) (f : ι → EReal) : s.fold min ⊤ f = s.inf f := rfl

/-! ## An infimum built up block by block -/

/-- The indices of `Fin N` below a bound. -/
def below {N : Nat} (k : Nat) : Finset (Fin N) := Finset.univ.filter fun m => m.val < k

theorem below_zero {N : Nat} : (below 0 : Finset (Fin N)) = ∅ := by
  unfold below; exact Finset.filter_false_of_mem fun m _ => Nat.not_lt_zero _

theorem below_all {N : Nat} : (below N : Finset (Fin N)) = Finset.univ := by
  unfold below; exact Finset.filter_true_of_mem fun m _ => m.isLt

theorem inf_below_zero {N : Nat} (f : Fin N → EReal) : (below 0).inf f = ⊤ := by
  rw [below_zero, Finset.inf_empty]

theorem inf_below_all {N : Nat} (f : Fin N → EReal) : (below N).inf f = Finset.univ.inf f := by
  rw [below_all]

/-- The infimum over the indices below (t + 1) * B is the infimum over those below t * B met with the infimum over
    block t, the B indices t * B + q. -/
theorem inf_below_succ {N : Nat} (B t : Nat) (h : (t + 1) * B ≤ N) (f : Fin N → EReal) :
    (below ((t + 1) * B)).inf f
      = min ((below (t * B)).inf f) (Finset.univ.inf fun q : Fin B => f ⟨t * B + q.val, by
          have := q.isLt; have e : (t + 1) * B = t * B + B := by ring
          omega⟩) := by
  have e : (t + 1) * B = t * B + B := by ring
  refine le_antisymm (le_min ?_ ?_) ?_
  · refine Finset.le_inf fun m hm => Finset.inf_le ?_
    have hm' : m.val < t * B := (Finset.mem_filter.mp hm).2
    exact Finset.mem_filter.mpr ⟨Finset.mem_univ _, by omega⟩
  · refine Finset.le_inf fun q _ => Finset.inf_le ?_
    have := q.isLt
    exact Finset.mem_filter.mpr ⟨Finset.mem_univ _, by show t * B + q.val < (t + 1) * B; omega⟩
  · refine Finset.le_inf fun m hm => ?_
    have hm' : m.val < (t + 1) * B := (Finset.mem_filter.mp hm).2
    by_cases hlt : m.val < t * B
    · exact (min_le_left _ _).trans (Finset.inf_le (Finset.mem_filter.mpr ⟨Finset.mem_univ _, hlt⟩))
    · refine (min_le_right _ _).trans ?_
      have hq : m.val - t * B < B := by omega
      have := Finset.inf_le (s := Finset.univ) (f := fun q : Fin B => f ⟨t * B + q.val, by
          have := q.isLt; omega⟩) (Finset.mem_univ (⟨m.val - t * B, hq⟩ : Fin B))
      refine this.trans (le_of_eq (congrArg f (Fin.ext ?_)))
      show t * B + (m.val - t * B) = m.val
      omega

end Cert.Chamfer

end
-- ==== Proof.BodyStmt.lean ====
/-
  What one grid point of the kernel leaves in its two output blocks, as functions of what it finds.

  A grid point sees the whole first cloud `pts` and block `blk` of 256 points of the second.  In the block of
  nearest distances of the first cloud's points (all 2048 of them, carried from grid point to grid point) it leaves, at
  (b, n), what it found there met with the infimum over the block's 256 points q of the distance of n and q; the very
  first grid point finds +infinity there, having filled the block with it.  In the block of nearest distances of the
  second cloud's 256 points it leaves, at (b, q), the infimum over all 2048 points n of the first cloud.
-/
import proofs.«144641_j11544872092235_1_alg».proof.Proof.Gen.KernelIdeal.Frame
import proofs.«144641_j11544872092235_1_alg».proof.Proof.Spec

set_option maxRecDepth 16384

noncomputable section

namespace Cert.KernelIdeal.Chamfer

open Idealize.ShloMosaic Idealize.ShloMosaic.TcCoe Idealize.ShloMosaic.ValueIdx
open Idealize.SL Idealize.SL.Sem
open Cert.KernelIdeal Cert.KernelIdeal.Gen Cert.Chamfer

/-- The distance of point n of the first cloud and point q of a block of the second, in batch entry b. -/
def blkDist (pts : Vec Ideal S8x2048x2 .f32) (blk : Vec Ideal S8x256x2 .f32) (b : Fin 8) (n : Fin 2048) (q : Fin 256) : EReal :=
  dist2 (pts (ix3 b n 0)) (pts (ix3 b n 1)) (blk (ix3 b q 0)) (blk (ix3 b q 1))

end Cert.KernelIdeal.Chamfer

end
-- ==== Proof.Payload.lean ====
/-
  The arithmetic of one step of the kernel body, read at an index over the extended reals.

  One step sees a chunk of 512 points of the first cloud and a block of 256 points of the second.  It forms the
  512 × 256 tile of distances, takes each row's infimum over the 256 columns into the running nearest distance of the
  chunk's points, and each column's infimum over the 512 rows into the running nearest distance of the block's points.
-/
import proofs.«144641_j11544872092235_1_alg».proof.Proof.Gen.KernelIdeal.Skeleton
import proofs.«144641_j11544872092235_1_alg».proof.Proof.Spec
import Idealize.ShloMosaic.Lib.Pipeline.Value
import Idealize.ShloMosaic.Lib.ValueLayout
import Idealize.ShloMosaic.PureOps.Ideal.Laws

noncomputable section

namespace Cert.KernelIdeal.Chamfer

open Idealize.ShloMosaic Idealize.ShloMosaic.ValueIdx Cert.KernelIdeal Cert.KernelIdeal.Gen Cert.Chamfer

/-! ## Layout operations of the tile, read at coordinates -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The tile of distances -/

/-- Coordinate `k` of the chunk's points, spread along the tile's columns: at `(b, r, q)` it is coordinate `k` of point `r`. -/
theorem rowSpread_apply (o : Nat) (k : Fin 2) (hk : k.val = o) (chunk : Vec Ideal S8x512x2 .f32)
    (h : S8x512x2.Slices ![0, 0, o] S8x512x1) (b : Fin 8) (r : Fin 512) (q : Fin 256) :
    broadcastTo S8x512x256
        (shapeCast S8x512x1
          (shapeCast S8x512 (extractStridedSlice S8x512x1 ![0, 0, o] chunk h) shapeCasts_S8x512x1_S8x512)
          shapeCasts_S8x512_S8x512x1)
        broadcasts_S8x512x1_S8x512x256 (ix3 b r q)
      = chunk (ix3 b r k) := by
  refine (broadcastTo_ab1_abc_apply _ _ b r q).trans ?_
  refine (shapeCast_ab_ab1_apply _ _ b r 0).trans ?_
  refine (shapeCast_ab1_ab_apply _ _ b r).trans ?_
  exact slice3_axis2_apply o chunk h b r 0 k (by rw [hk]; rfl)

/-- Coordinate `k` of the block's points, spread along the tile's rows: at `(b, r, q)` it is coordinate `k` of point `q`. -/
theorem colSpread_apply (o : Nat) (k : Fin 2) (hk : k.val = o) (blk : Vec Ideal S8x256x2 .f32)
    (h : S8x256x2.Slices ![0, 0, o] S8x256x1) (b : Fin 8) (r : Fin 512) (q : Fin 256) :
    broadcastTo S8x512x256
        (shapeCast S8x1x256
          (shapeCast S8x256 (extractStridedSlice S8x256x1 ![0, 0, o] blk h) shapeCasts_S8x256x1_S8x256)
          shapeCasts_S8x256_S8x1x256)
        broadcasts_S8x1x256_S8x512x256 (ix3 b r q)
      = blk (ix3 b q k) := by
  refine (broadcastTo_a1c_abc_apply _ _ b r q).trans ?_
  refine (shapeCast_ab_a1b_apply _ _ b 0 q).trans ?_
  refine (shapeCast_ab1_ab_apply _ _ b q).trans ?_
  exact slice3_axis2_apply o blk h b q 0 k (by rw [hk]; rfl)

/-- The 512 × 256 tile of distances: row r is point r of the chunk, column q point q of the block. -/
theorem pay3_apply (blk : Vec Ideal S8x256x2 .f32) (chunk : Vec Ideal S8x512x2 .f32) (b : Fin 8) (r : Fin 512) (q : Fin 256) :
    k0_pay3 (F := Ideal) blk chunk (ix3 b r q)
      = dist2 (chunk (ix3 b r 0)) (chunk (ix3 b r 1)) (blk (ix3 b q 0)) (blk (ix3 b q 1)) := by
  have hp0 := rowSpread_apply 0 0 rfl chunk slices_S8x512x2_o0_0_0_S8x512x1 b r q
  have hp1 := rowSpread_apply 1 1 rfl chunk slices_S8x512x2_o0_0_1_S8x512x1 b r q
  have hq0 := colSpread_apply 0 0 rfl blk slices_S8x256x2_o0_0_0_S8x256x1 b r q
  have hq1 := colSpread_apply 1 1 rfl blk slices_S8x256x2_o0_0_1_S8x256x1 b r q
  unfold dist2
  rw [← hp0, ← hp1, ← hq0, ← hq1]
  rfl

/-! ## A minimum-reduction over one axis, from +infinity -/

/-- A `minimumf` reduction over one axis, read at the extended reals: the fold of `min` from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Started from the f32 word of +infinity, it is the infimum over that axis's coordinates. -/
theorem minReduce_posInf_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = Finset.univ.inf fun k : Fin (s.size a) => src (h.lift j k) := by
  rw [multiReduction_minimumf_single]
  show Finset.fold min (Ideal.ofBits .f32 0x7F800000#32) _ _ = _
  rw [ofBits_posInf]
  rfl

/-- The chunk's running nearest distances met with each row's infimum over the block. -/
theorem pay4_apply (blk : Vec Ideal S8x256x2 .f32) (chunk : Vec Ideal S8x512x2 .f32) (cur : Vec Ideal S8x512 .f32) (b : Fin 8) (r : Fin 512) :
    k0_pay4 (F := Ideal) blk chunk cur (ix2 b r)
      = min (cur (ix2 b r)) (Finset.univ.inf fun q : Fin 256 =>
          dist2 (chunk (ix3 b r 0)) (chunk (ix3 b r 1)) (blk (ix3 b q 0)) (blk (ix3 b q 1))) := by
  have hred := minReduce_posInf_single (k0_pay3 (F := Ideal) blk chunk) reduces_S8x512x256_S8x512 (.inl rfl) rfl (ix2 b r)
  show min (shapeCast S8x512 cur shapeCasts_S8x512_S8x512 (ix2 b r))
      (multiReduction .minimumf [2] S8x512 (k0_pay3 (F := Ideal) blk chunk) 0x7F800000#32 reduces_S8x512x256_S8x512 (.inl rfl) rfl (ix2 b r)) = _
  rw [hred, shapeCast_self]
  refine congrArg (min (cur (ix2 b r))) ?_
  refine Finset.inf_congr rfl fun q _ => ?_
  have hl : reduces_S8x512x256_S8x512.lift (ix2 b r) q = ix3 b r q := by
    funext c
    match c with
    | ⟨0, _⟩ => exact Fin.ext rfl
    | ⟨1, _⟩ => exact Fin.ext rfl
    | ⟨2, _⟩ => exact Fin.ext rfl
  rw [hl]
  exact pay3_apply blk chunk b r q

/-- The block's running nearest distances met with each column's infimum over the chunk. -/
theorem pay5_apply (blk : Vec Ideal S8x256x2 .f32) (acc : FVec Ideal S8x256 .f32) (chunk : Vec Ideal S8x512x2 .f32) (b : Fin 8) (q : Fin 256) :
    k0_pay5 (F := Ideal) blk acc chunk (ix2 b q)
      = min (acc (ix2 b q)) (Finset.univ.inf fun r : Fin 512 =>
          dist2 (chunk (ix3 b r 0)) (chunk (ix3 b r 1)) (blk (ix3 b q 0)) (blk (ix3 b q 1))) := by
  have hred := minReduce_posInf_single (k0_pay3 (F := Ideal) blk chunk) reduces_S8x512x256_S8x256 (.inl rfl) rfl (ix2 b q)
  show min (acc (ix2 b q))
      (multiReduction .minimumf [1] S8x256 (k0_pay3 (F := Ideal) blk chunk) 0x7F800000#32 reduces_S8x512x256_S8x256 (.inl rfl) rfl (ix2 b q)) = _
  rw [hred]
  refine congrArg (min (acc (ix2 b q))) ?_
  refine Finset.inf_congr rfl fun r _ => ?_
  have hl : reduces_S8x512x256_S8x256.lift (ix2 b q) r = ix3 b r q := by
    funext c
    match c with
    | ⟨0, _⟩ => exact Fin.ext rfl
    | ⟨1, _⟩ => exact Fin.ext rfl
    | ⟨2, _⟩ => exact Fin.ext rfl
  rw [hl]
  exact pay3_apply blk chunk b r q

/-! ## The fills: +infinity everywhere -/

/-- The f32 word of +infinity, read at the extended reals, is the top element. -/
theorem posInf_word : (Scalar.ofBits (F := Ideal) .f32 0x7F800000#32 : EReal) = ⊤ := ofBits_posInf

/-- The fill the first grid point stores: +infinity everywhere. -/
theorem pay1_apply (j : S8x2048.Idx) : k0_pay1 (F := Ideal) j = (⊤ : EReal) := posInf_word

/-- The value the loop over the chunks starts from: +infinity everywhere. -/
theorem pay2_apply (j : S8x256.Idx) : k0_pay2 (F := Ideal) j = (⊤ : EReal) := posInf_word

end Cert.KernelIdeal.Chamfer

end
-- ==== Proof.Body.lean ====
/-
  What one grid point of the kernel leaves in its two output blocks (stated in BodyStmt), read off the body's run.

  The body walks the first cloud in four chunks of 512 points.  Step k loads chunk k and the chunk's 512 running
  nearest distances, stores the running distances met with each row's infimum over the block back to the same 512
  places, and carries the block's running nearest distances met with each column's infimum over the chunk.  So after
  k steps the places of the first k chunks hold what the loop found there met with the infimum over the block, the
  other places are untouched, and the carried value is the infimum over the first k chunks.
-/
import proofs.«144641_j11544872092235_1_alg».proof.Proof.BodyStmt
import proofs.«144641_j11544872092235_1_alg».proof.Proof.Payload
import Idealize.ShloMosaic.Lib.Pipeline.Value

set_option maxRecDepth 16384

noncomputable section

namespace Cert.KernelIdeal.Chamfer

open Idealize.ShloMosaic Idealize.ShloMosaic.TcCoe Idealize.ShloMosaic.ValueIdx
open Idealize.SL Idealize.SL.Sem
open Cert.KernelIdeal Cert.KernelIdeal.Gen Cert.Chamfer

/-! ## One step of the loop -/

/-- The places of chunk k in the first cloud: points 512 · k … 512 · k + 511 of every batch entry. -/
abbrev chunkRect (k : Fin k0_t1_loop.trips) : Rect S8x2048x2 :=
  Rect.unit (s := S8x2048x2) (k0_off1 k) S8x512x2.size (k0_off1_inb k)

/-- The places of chunk k's running nearest distances. -/
abbrev rowsRect (k : Fin k0_t1_loop.trips) : Rect S8x2048 :=
  Rect.unit (s := S8x2048) (k0_off2 k) S8x512.size (k0_off2_inb k)

/-- What step k yields: the carried value met with the column infima over chunk k. -/
theorem step_yield (𝒱 : Variants) (c : Dev nD) (bd : Option 𝒱.V) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (blk : Vec Ideal S8x256x2 .f32) (X_arg1 : BufTy.Contents (Elt Ideal) arg1.view.ty) (k : Fin k0_t1_loop.trips) (acc : FVec Ideal S8x256 .f32) (f_arg3 : BufTy.Contents (Elt Ideal) arg3.view.ty) :
    tripR_k0_t1 (F := Ideal) 𝒱 c bd i arg1 harg1 arg2 harg2 arg3 harg3 arg4 harg4 blk X_arg1 k acc f_arg3
      = k0_pay5 blk acc (View.readAt (Elt Ideal) arg1.view (chunkRect k).toLoadRect X_arg1) := by
  unfold tripR_k0_t1 trip_k0_t1
  rfl

/-- What step k stores: one piece, at the places of chunk k, the running distances found there met with the row
    infima over the block. -/
theorem step_piece (𝒱 : Variants) (c : Dev nD) (bd : Option 𝒱.V) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (blk : Vec Ideal S8x256x2 .f32) (X_arg1 : BufTy.Contents (Elt Ideal) arg1.view.ty) (k : Fin k0_t1_loop.trips) (acc : FVec Ideal S8x256 .f32) (f_arg3 : BufTy.Contents (Elt Ideal) arg3.view.ty) :
    tripL_k0_t1 (F := Ideal) 𝒱 c bd i arg1 harg1 arg2 harg2 arg3 harg3 arg4 harg4 blk X_arg1 k acc f_arg3
      = [⟨rowsRect k,
          k0_pay4 blk (View.readAt (Elt Ideal) arg1.view (chunkRect k).toLoadRect X_arg1)
            (View.readAt (Elt Ideal) arg3.view (rowsRect k).toLoadRect f_arg3)⟩] := by
  unfold tripL_k0_t1 trip_k0_t1
  rfl

/-- The loop has four steps. -/
theorem trips_eq : k0_t1_loop.trips = 4 := by decide

/-- Chunk k of the first cloud starts at point 512 · k. -/
theorem off1_val (k : Fin k0_t1_loop.trips) : k0_off1 k = ![0, 512 * k.val, 0] := k0_off1_eq k
theorem off2_val (k : Fin k0_t1_loop.trips) : k0_off2 k = ![0, 512 * k.val] := k0_off2_eq k

/-! ## Places of a chunk -/

/-- Place (b, r, d) of chunk k is place (b, 512 · k + r, d) of the first cloud. -/
theorem chunk_idx (k : Fin k0_t1_loop.trips) (b : Fin 8) (r : Fin 512) (d : Fin 2) :
    (chunkRect k).idx (ix3 b r d) = ix3 b ⟨k.val * 512 + r.val, by have := k.isLt; have := trips_eq; omega⟩ d := by
  have h := off1_val k
  funext a
  refine Fin.ext ?_
  match a with
  | ⟨0, _⟩ => show k0_off1 k 0 + 1 * b.val = b.val; rw [h]; show 0 + 1 * b.val = b.val; omega
  | ⟨1, _⟩ => show k0_off1 k 1 + 1 * r.val = k.val * 512 + r.val; rw [h]; show 512 * k.val + 1 * r.val = _; omega
  | ⟨2, _⟩ => show k0_off1 k 2 + 1 * d.val = d.val; rw [h]; show 0 + 1 * d.val = d.val; omega

/-- Place (b, r) of chunk k's running distances is place (b, 512 · k + r) of the block of running distances. -/
theorem rows_idx (k : Fin k0_t1_loop.trips) (b : Fin 8) (r : Fin 512) :
    (rowsRect k).emb (ix2 b r) = ix2 b ⟨k.val * 512 + r.val, by have := k.isLt; have := trips_eq; omega⟩ := by
  have h := off2_val k
  funext a
  refine Fin.ext ?_
  match a with
  | ⟨0, _⟩ => show k0_off2 k 0 + 1 * b.val = b.val; rw [h]; show 0 + 1 * b.val = b.val; omega
  | ⟨1, _⟩ => show k0_off2 k 1 + 1 * r.val = k.val * 512 + r.val; rw [h]; show 512 * k.val + 1 * r.val = _; omega

/-- A place (b, n) outside points 512 · k … 512 · k + 511 is not among chunk k's places. -/
theorem rows_not_mem (k : Fin k0_t1_loop.trips) (b : Fin 8) (n : Fin 2048) (hn : ¬(k.val * 512 ≤ n.val ∧ n.val < (k.val + 1) * 512)) :
    (ix2 b n : S8x2048.Idx) ∉ Finset.univ.map (rowsRect k).emb := by
  rw [Rect.map_emb_univ]
  intro hm
  have h1 := (Rect.mem_set_unit.mp hm) 1
  rw [off2_val k] at h1
  have h2 : 512 * k.val ≤ n.val ∧ n.val < 512 * k.val + 512 := h1
  omega

/-! ## The loop after k steps -/

/-- The state after step k from the state before it. -/
theorem state_succ (𝒱 : Variants) (c : Dev nD) (bd : Option 𝒱.V) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (blk : Vec Ideal S8x256x2 .f32) (X_arg1 : BufTy.Contents (Elt Ideal) arg1.view.ty) (G_arg3 : BufTy.Contents (Elt Ideal) arg3.view.ty) (init : FVec Ideal S8x256 .f32) (k : ℕ) (hk : k < k0_t1_loop.trips) :
    (st_k0_t1 (F := Ideal) 𝒱 c bd i arg1 harg1 arg2 harg2 arg3 harg3 arg4 harg4 blk X_arg1 G_arg3 init (k + 1))
      = (k0_pay5 blk (st_k0_t1 (F := Ideal) 𝒱 c bd i arg1 harg1 arg2 harg2 arg3 harg3 arg4 harg4 blk X_arg1 G_arg3 init k).1 (View.readAt (Elt Ideal) arg1.view (chunkRect ⟨k, hk⟩).toLoadRect X_arg1),
         (⟨rowsRect ⟨k, hk⟩, k0_pay4 blk (View.readAt (Elt Ideal) arg1.view (chunkRect ⟨k, hk⟩).toLoadRect X_arg1)
            (View.readAt (Elt Ideal) arg3.view (rowsRect ⟨k, hk⟩).toLoadRect (arg3.view.writes (Elt Ideal) G_arg3 (st_k0_t1 (F := Ideal) 𝒱 c bd i arg1 harg1 arg2 harg2 arg3 harg3 arg4 harg4 blk X_arg1 G_arg3 init k).2))⟩
           : View.Piece (Elt Ideal) S8x2048 .f32) :: (st_k0_t1 (F := Ideal) 𝒱 c bd i arg1 harg1 arg2 harg2 arg3 harg3 arg4 harg4 blk X_arg1 G_arg3 init k).2) := by
  refine (st_k0_t1_succ (F := Ideal) 𝒱 c bd i arg1 harg1 arg2 harg2 arg3 harg3 arg4 harg4 blk X_arg1 G_arg3 init ⟨k, hk⟩).trans ?_
  rw [step_yield, step_piece]
  rfl

/-- After k steps: the carried value is the starting value met with the column infima over the first k chunks; the
    places of the first k chunks hold what the loop found there met with the row infimum over the block, the other
    places what the loop found there. -/
theorem loop_inv (𝒱 : Variants) (c : Dev nD) (bd : Option 𝒱.V) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (blk : Vec Ideal S8x256x2 .f32) (X_arg1 : BufTy.Contents (Elt Ideal) arg1.view.ty) (G_arg3 : BufTy.Contents (Elt Ideal) arg3.view.ty) (init : FVec Ideal S8x256 .f32) :
    ∀ k : ℕ, k ≤ 4 →
      ((st_k0_t1 (F := Ideal) 𝒱 c bd i arg1 harg1 arg2 harg2 arg3 harg3 arg4 harg4 blk X_arg1 G_arg3 init k).1 = fun j => min (init j)
          ((below (k * 512)).inf fun n : Fin 2048 => blkDist (arg1.view.read (Elt Ideal) X_arg1) blk (j 0) n (j 1)))
      ∧ ∀ (b : Fin 8) (n : Fin 2048),
          arg3.view.read (Elt Ideal) (arg3.view.writes (Elt Ideal) G_arg3 (st_k0_t1 (F := Ideal) 𝒱 c bd i arg1 harg1 arg2 harg2 arg3 harg3 arg4 harg4 blk X_arg1 G_arg3 init k).2) (ix2 b n)
            = if n.val < k * 512 then
                min (arg3.view.read (Elt Ideal) G_arg3 (ix2 b n))
                  (Finset.univ.inf fun q : Fin 256 => blkDist (arg1.view.read (Elt Ideal) X_arg1) blk b n q)
              else arg3.view.read (Elt Ideal) G_arg3 (ix2 b n) := by
  intro k
  induction k with
  | zero =>
    intro _
    refine ⟨?_, fun b n => ?_⟩
    · show init = _
      funext j
      rw [Nat.zero_mul, inf_below_zero, min_top_right]
    · show arg3.view.read (Elt Ideal) G_arg3 (ix2 b n) = _
      rw [if_neg (by omega)]
  | succ k ih =>
    intro hk
    obtain ⟨ih1, ih2⟩ := ih (by omega)
    have hk' : k < k0_t1_loop.trips := by rw [trips_eq]; omega
    rw [state_succ 𝒱 c bd i arg1 harg1 arg2 harg2 arg3 harg3 arg4 harg4 blk X_arg1 G_arg3 init k hk']
    refine ⟨?_, fun b n => ?_⟩
    · -- the carried value
      show k0_pay5 blk _ _ = _
      funext j
      obtain ⟨b, q, rfl⟩ : ∃ (b : Fin 8) (q : Fin 256), j = ix2 b q := ⟨j 0, j 1, eq_ix2 j⟩
      rw [pay5_apply, ih1]
      show min (min (init (ix2 b q)) _) _ = min (init (ix2 b q)) _
      rw [min_assoc, inf_below_succ 512 k (by omega)]
      refine congrArg (min _) (congrArg (min _) (Finset.inf_congr rfl fun r _ => ?_))
      unfold blkDist
      rw [View.readAt_eq_ld]
      show dist2 (arg1.view.read (Elt Ideal) X_arg1 ((chunkRect ⟨k, hk'⟩).idx (ix3 b r 0)))
          (arg1.view.read (Elt Ideal) X_arg1 ((chunkRect ⟨k, hk'⟩).idx (ix3 b r 1))) _ _ = _
      rw [chunk_idx, chunk_idx]
    · -- the running distances
      by_cases hn : k * 512 ≤ n.val ∧ n.val < (k + 1) * 512
      · obtain ⟨hlo, hhi⟩ := hn
        have en : n = ⟨k * 512 + (n.val - k * 512), by omega⟩ := Fin.ext (by show n.val = k * 512 + (n.val - k * 512); omega)
        have ey : (ix2 b n : S8x2048.Idx) = (rowsRect ⟨k, hk'⟩).emb (ix2 b ⟨n.val - k * 512, by omega⟩) := by
          rw [rows_idx]; exact congrArg (ix2 b) en
        rw [if_pos hhi]
        conv_lhs => rw [ey]
        rw [View.read_writes_cons_emb, pay4_apply]
        refine congrArg₂ min ?_ (Finset.inf_congr rfl fun q _ => ?_)
        · rw [View.readAt_eq_ld]
          show arg3.view.read (Elt Ideal) _ ((rowsRect ⟨k, hk'⟩).emb (ix2 b ⟨n.val - k * 512, _⟩)) = _
          rw [← ey, ih2 b n, if_neg (by omega)]
        · unfold blkDist
          rw [View.readAt_eq_ld]
          show dist2 (arg1.view.read (Elt Ideal) X_arg1 ((chunkRect ⟨k, hk'⟩).idx (ix3 b _ 0)))
              (arg1.view.read (Elt Ideal) X_arg1 ((chunkRect ⟨k, hk'⟩).idx (ix3 b _ 1))) _ _ = _
          rw [chunk_idx, chunk_idx, ← en]
      · rw [View.writes_cons, View.read_slice_write_of_not_mem _ _ _ _ (rows_not_mem ⟨k, hk'⟩ b n hn), ih2 b n]
        by_cases h1 : n.val < k * 512
        · rw [if_pos h1, if_pos (by omega)]
        · rw [if_neg h1, if_neg (by omega)]

/-! ## The whole body -/

theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

/-- One store through the whole block leaves its payload, whatever was there. -/
theorem read_single_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  funext y
  have e := View.read_writes_cons_emb v f (Rect.whole S) w [] y
  rw [Rect.emb_whole_apply] at e
  exact e

/-- The body's load of the whole block of the second cloud reads the block. -/
theorem blk_read (arg2 : Memref sig .tc .vmem S8x256x2 .f32) (harg2 : arg2.IsWhole) (blk : Vec Ideal S8x256x2 .f32) :
    View.readAt (Elt Ideal) arg2.view (Rect.unit (s := S8x256x2) ![0, 0, 0] S8x256x2.size inb_S8x256x2_S8x256x2_0_0_0).toLoadRect (harg2.unread blk) = blk := by
  rw [View.readAt_eq_ld, harg2.read_unread, View.ld_unit_zero zeros3]

theorem trips_lit : Scf.trips (0#32) (Scalar.addi 0#32 4#32) 1#32 = 4 := by decide

/-- The first grid point's stores into the first output block: the fill, then the loop's four pieces over it. -/
theorem runA_L2 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : cond0_0 i) (pts : Vec Ideal S8x2048x2 .f32) (blk : Vec Ideal S8x256x2 .f32) :
    (kernelRun0_A (F := Ideal) c i arg1 harg1 arg2 harg2 arg3 harg3 arg4 harg4 hc0 pts blk).1 = (st_k0_t1 (F := Ideal) Variants.none c none i arg1 harg1 arg2 harg2 arg3 harg3 arg4 harg4 blk (harg1.unread pts) (arg3.view.writes (Elt Ideal) arg3.view.junk [(⟨Rect.unit (s := S8x2048) ![0, 0] S8x2048.size inb_S8x2048_S8x2048_0_0, k0_pay1 (F := Ideal)⟩ : View.Piece (Elt Ideal) S8x2048 .f32)]) (k0_pay2 (F := Ideal)) 4).2 ++ [(⟨Rect.unit (s := S8x2048) ![0, 0] S8x2048.size inb_S8x2048_S8x2048_0_0, k0_pay1 (F := Ideal)⟩ : View.Piece (Elt Ideal) S8x2048 .f32)] := by
  unfold kernelRun0_A
  dsimp only
  rw [blk_read, trips_lit]
  rfl

/-- The first grid point's store into the second output block: the loop's carried value. -/
theorem runA_L3 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : cond0_0 i) (pts : Vec Ideal S8x2048x2 .f32) (blk : Vec Ideal S8x256x2 .f32) :
    (kernelRun0_A (F := Ideal) c i arg1 harg1 arg2 harg2 arg3 harg3 arg4 harg4 hc0 pts blk).2.1
      = [(⟨Rect.unit (s := S8x256) ![0, 0] S8x256.size inb_S8x256_S8x256_0_0, (st_k0_t1 (F := Ideal) Variants.none c none i arg1 harg1 arg2 harg2 arg3 harg3 arg4 harg4 blk (harg1.unread pts) (arg3.view.writes (Elt Ideal) arg3.view.junk [(⟨Rect.unit (s := S8x2048) ![0, 0] S8x2048.size inb_S8x2048_S8x2048_0_0, k0_pay1 (F := Ideal)⟩ : View.Piece (Elt Ideal) S8x2048 .f32)]) (k0_pay2 (F := Ideal)) 4).1⟩ : View.Piece (Elt Ideal) S8x256 .f32)] := by
  unfold kernelRun0_A
  dsimp only
  rw [blk_read, trips_lit]
  rfl

/-- A later grid point's stores into the first output block: the loop's four pieces over what it found. -/
theorem runB_L2 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : ¬cond0_0 i) (pts : Vec Ideal S8x2048x2 .f32) (blk : Vec Ideal S8x256x2 .f32) (found : Vec Ideal S8x2048 .f32) :
    (kernelRun0_B (F := Ideal) c i arg1 harg1 arg2 harg2 arg3 harg3 arg4 harg4 hc0 pts blk found).1 = (st_k0_t1 (F := Ideal) Variants.none c none i arg1 harg1 arg2 harg2 arg3 harg3 arg4 harg4 blk (harg1.unread pts) (harg3.unread found) (k0_pay2 (F := Ideal)) 4).2 := by
  unfold kernelRun0_B
  dsimp only
  rw [blk_read, trips_lit]

theorem runB_L3 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : ¬cond0_0 i) (pts : Vec Ideal S8x2048x2 .f32) (blk : Vec Ideal S8x256x2 .f32) (found : Vec Ideal S8x2048 .f32) :
    (kernelRun0_B (F := Ideal) c i arg1 harg1 arg2 harg2 arg3 harg3 arg4 harg4 hc0 pts blk found).2.1
      = [(⟨Rect.unit (s := S8x256) ![0, 0] S8x256.size inb_S8x256_S8x256_0_0, (st_k0_t1 (F := Ideal) Variants.none c none i arg1 harg1 arg2 harg2 arg3 harg3 arg4 harg4 blk (harg1.unread pts) (harg3.unread found) (k0_pay2 (F := Ideal)) 4).1⟩ : View.Piece (Elt Ideal) S8x256 .f32)] := by
  unfold kernelRun0_B
  dsimp only
  rw [blk_read, trips_lit]

/-- The carried value after the four steps, from +infinity: the infimum over the whole first cloud. -/
theorem carried_all (pts : Vec Ideal S8x2048x2 .f32) (blk : Vec Ideal S8x256x2 .f32) (j : S8x256.Idx) :
    min (k0_pay2 (F := Ideal) j) ((below (4 * 512)).inf fun n : Fin 2048 => blkDist pts blk (j 0) n (j 1))
      = Finset.univ.inf fun n : Fin 2048 => blkDist pts blk (j 0) n (j 1) := by
  rw [pay2_apply, min_top_left]
  exact inf_below_all _

/-- The first grid point: the first cloud's nearest distances start from the block alone. -/
theorem outA_2 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : cond0_0 i) (pts : Vec Ideal S8x2048x2 .f32) (blk : Vec Ideal S8x256x2 .f32) :
    out0_A_2 (F := Ideal) c i arg1 harg1 arg2 harg2 arg3 harg3 arg4 harg4 hc0 pts blk
      = fun j => Finset.univ.inf fun q : Fin 256 => blkDist pts blk (j 0) (j 1) q := by
  unfold out0_A_2
  rw [View.read_writes_of_cover VO0_2 _ arg3.view arg3.view.junk _ (cover0_A_2 (F := Ideal) c i arg1 harg1 arg2 harg2 arg3 harg3 arg4 harg4 hc0 pts blk),
    runA_L2, View.writes_append]
  funext j
  obtain ⟨b, n, rfl⟩ : ∃ (b : Fin 8) (n : Fin 2048), j = ix2 b n := ⟨j 0, j 1, eq_ix2 j⟩
  rw [(loop_inv Variants.none c none i arg1 harg1 arg2 harg2 arg3 harg3 arg4 harg4 blk (harg1.unread pts) (arg3.view.writes (Elt Ideal) arg3.view.junk [(⟨Rect.unit (s := S8x2048) ![0, 0] S8x2048.size inb_S8x2048_S8x2048_0_0, k0_pay1 (F := Ideal)⟩ : View.Piece (Elt Ideal) S8x2048 .f32)]) (k0_pay2 (F := Ideal)) 4 le_rfl).2 b n, if_pos (by have := n.isLt; omega), harg1.read_unread,
    read_single_whole arg3.view _ zeros2, pay1_apply, min_top_left]

/-- The first grid point: the block's nearest distances over the whole first cloud. -/
theorem outA_3 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : cond0_0 i) (pts : Vec Ideal S8x2048x2 .f32) (blk : Vec Ideal S8x256x2 .f32) :
    out0_A_3 (F := Ideal) c i arg1 harg1 arg2 harg2 arg3 harg3 arg4 harg4 hc0 pts blk
      = fun j => Finset.univ.inf fun n : Fin 2048 => blkDist pts blk (j 0) n (j 1) := by
  unfold out0_A_3
  rw [runA_L3, read_single_whole VO0_3 _ zeros2, (loop_inv Variants.none c none i arg1 harg1 arg2 harg2 arg3 harg3 arg4 harg4 blk (harg1.unread pts) (arg3.view.writes (Elt Ideal) arg3.view.junk [(⟨Rect.unit (s := S8x2048) ![0, 0] S8x2048.size inb_S8x2048_S8x2048_0_0, k0_pay1 (F := Ideal)⟩ : View.Piece (Elt Ideal) S8x2048 .f32)]) (k0_pay2 (F := Ideal)) 4 le_rfl).1, harg1.read_unread]
  funext j
  exact carried_all pts blk j

/-- A later grid point: what it found, met with the block's contribution. -/
theorem outB_2 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : ¬cond0_0 i) (pts : Vec Ideal S8x2048x2 .f32) (blk : Vec Ideal S8x256x2 .f32) (found : Vec Ideal S8x2048 .f32) :
    out0_B_2 (F := Ideal) c i arg1 harg1 arg2 harg2 arg3 harg3 arg4 harg4 hc0 pts blk found
      = fun j => min (found j) (Finset.univ.inf fun q : Fin 256 => blkDist pts blk (j 0) (j 1) q) := by
  unfold out0_B_2
  rw [View.read_writes_of_cover VO0_2 _ arg3.view (harg3.unread found) _ (cover0_B_2 (F := Ideal) c i arg1 harg1 arg2 harg2 arg3 harg3 arg4 harg4 hc0 pts blk found),
    runB_L2]
  funext j
  obtain ⟨b, n, rfl⟩ : ∃ (b : Fin 8) (n : Fin 2048), j = ix2 b n := ⟨j 0, j 1, eq_ix2 j⟩
  rw [(loop_inv Variants.none c none i arg1 harg1 arg2 harg2 arg3 harg3 arg4 harg4 blk (harg1.unread pts) (harg3.unread found) (k0_pay2 (F := Ideal)) 4 le_rfl).2 b n, if_pos (by have := n.isLt; omega), harg1.read_unread, harg3.read_unread]

/-- A later grid point: the block's nearest distances over the whole first cloud. -/
theorem outB_3 (c : Dev nD) (i : grid0.Coords) (arg1 : Memref sig .tc .vmem S8x2048x2 .f32) (harg1 : arg1.IsWhole) (arg2 : Memref sig .tc .vmem S8x256x2 .f32) (harg2 : arg2.IsWhole) (arg3 : Memref sig .tc .vmem S8x2048 .f32) (harg3 : arg3.IsWhole) (arg4 : Memref sig .tc .vmem S8x256 .f32) (harg4 : arg4.IsWhole) (hc0 : ¬cond0_0 i) (pts : Vec Ideal S8x2048x2 .f32) (blk : Vec Ideal S8x256x2 .f32) (found : Vec Ideal S8x2048 .f32) :
    out0_B_3 (F := Ideal) c i arg1 harg1 arg2 harg2 arg3 harg3 arg4 harg4 hc0 pts blk found
      = fun j => Finset.univ.inf fun n : Fin 2048 => blkDist pts blk (j 0) n (j 1) := by
  unfold out0_B_3
  rw [runB_L3, read_single_whole VO0_3 _ zeros2, (loop_inv Variants.none c none i arg1 harg1 arg2 harg2 arg3 harg3 arg4 harg4 blk (harg1.unread pts) (harg3.unread found) (k0_pay2 (F := Ideal)) 4 le_rfl).1, harg1.read_unread]
  funext j
  exact carried_all pts blk j

end Cert.KernelIdeal.Chamfer

end
-- ==== Proof.TailDefs.lean ====
/-
  From the two arrays of nearest distances to the loss: the mean over the points of each cloud, the two means added
  and halved, and the mean of that over the batch.  The two programs spell the halving differently — one multiplies
  by one half, the other divides by two — and agree in everything else; both spellings are fixed here as functions of
  the two arrays, so that the two programs' last stretches can be compared without looking inside the arrays.
-/
import Idealize.ShloMosaic.PureOps.Ideal
import Idealize.ShloMosaic.PureOps
import Idealize.ShloMosaic.Lib.StableHlo
import proofs.«144641_j11544872092235_1_alg».proof.Proof.Spec

noncomputable section

namespace Cert.Chamfer

open Idealize.ShloMosaic

/-- One number per batch entry. -/
abbrev Row : Shape := ⟨1, ![8]⟩
/-- One number. -/
abbrev Sc : Shape := ⟨0, ![]⟩

section
variable {F : FTy → Type} [FloatOps F]
variable (h1 : Mat.ReducesTo [1] Row) (h0 : 0 < Sc.numel) (hb : Sc.BroadcastsInDim Row (![] : Fin 0 → Fin Row.rank))
  (h2 : Row.ReducesTo [0] Sc)

/-- Per batch entry: the mean of X over its 2048 points plus the mean of Y over its 2048 points. -/
def meanSum (X Y : FVec F Mat .f32) : FVec F Row .f32 :=
  addf
    (Host.divf (Host.reduceAdd X (constant Sc .f32 0x00000000#32) h1 h0) (broadcastInDim Row ![] hb (constant Sc .f32 0x45000000#32)))
    (Host.divf (Host.reduceAdd Y (constant Sc .f32 0x00000000#32) h1 h0) (broadcastInDim Row ![] hb (constant Sc .f32 0x45000000#32)))

/-- The loss with the halving spelt as a product with one half. -/
def lossTimesHalf (X Y : FVec F Mat .f32) : FVec F Sc .f32 :=
  Host.divf
    (Host.reduceAdd (mulf (meanSum h1 h0 hb X Y) (broadcastInDim Row ![] hb (constant Sc .f32 0x3F000000#32)))
      (constant Sc .f32 0x00000000#32) h2 h0)
    (constant Sc .f32 0x41000000#32)

/-- The loss with the halving spelt as a quotient by two. -/
def lossOverTwo (X Y : FVec F Mat .f32) : FVec F Sc .f32 :=
  Host.divf
    (Host.reduceAdd (Host.divf (meanSum h1 h0 hb X Y) (broadcastInDim Row ![] hb (constant Sc .f32 0x40000000#32)))
      (constant Sc .f32 0x00000000#32) h2 h0)
    (constant Sc .f32 0x41000000#32)

end

end Cert.Chamfer

end
-- ==== Proof.Grid.lean ====
/-
  The kernel's run over its eight grid points, and the loss it ends with.

  Grid point t sees the whole first cloud and block t of the second: its points 256 t, ..., 256 t + 255.  The block of
  the first cloud's nearest distances is the whole array and is carried from grid point to grid point: after point t it
  holds, at (b, n), the infimum of d(b, n, mm) over the points mm < 256 (t + 1) of the second cloud (induction on t, an
  infimum being built up block by block), so that after the last point it holds nearP, and it is written back then.
  The block of the second cloud's nearest distances holds after point t, at (b, q), the infimum over all n of
  d(b, n, 256 t + q): that is block t of nearQ, written back at every point, and the eight blocks cover the array.
  The host operations that follow take the two arrays to the loss.
-/
import proofs.«144641_j11544872092235_1_alg».proof.Proof.Body
import proofs.«144641_j11544872092235_1_alg».proof.Proof.TailDefs
import Idealize.ShloMosaic.Lib.Pipeline.Value
import Idealize.ShloMosaic.Lib.StableHlo.Run

set_option maxRecDepth 16384

noncomputable section

namespace Cert.KernelIdeal.Chamfer

open Idealize.ShloMosaic Idealize.ShloMosaic.TcCoe Idealize.ShloMosaic.ValueIdx
open Idealize.SL Idealize.SL.Sem
open Cert.KernelIdeal Cert.KernelIdeal.Gen Cert.Chamfer

section

variable (m : (ℓ : Loc nD τ sig) → Buf (Elt Ideal) ℓ)

/-! ## The two clouds and a grid point's blocks of them -/

/-- The first cloud at the kernel's entry. -/
abbrev ptsArr (c : Dev nD) : Vec Ideal S8x2048x2 .f32 := V m c main_arg0
/-- The second cloud at the kernel's entry. -/
abbrev qtsArr (c : Dev nD) : Vec Ideal S8x2048x2 .f32 := V m c main_arg1
/-- What grid point t sees of the first cloud. -/
abbrev ptsBlk (c : Dev nD) (t : Fin cfg0.N) : Vec Ideal S8x2048x2 .f32 := iblk m c 0 t
/-- What grid point t sees of the second cloud. -/
abbrev qtsBlk (c : Dev nD) (t : Fin cfg0.N) : Vec Ideal S8x256x2 .f32 := iblk m c 1 t

/-- The block indices at grid point t: the first cloud's and the first result's blocks never move, the second
    cloud's and the second result's are block t along the axis of points. -/
theorem idx_facts : ∀ t : Fin cfg0.N, win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Every grid point sees the whole first cloud. -/
theorem ptsBlk_eq (c : Dev nD) (t : Fin cfg0.N) : ptsBlk m c t = ptsArr m c := by
  obtain ⟨e0, e1, e2, -⟩ := idx_facts t
  funext j
  unfold ptsBlk iblk
  rw [View.read_apply]
  show V m c main_arg0 _ = V m c main_arg0 j
  congr 1
  funext a
  apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 2 + 1 * (j 2).val = (j 2).val; omega

/-- Point q of what grid point t sees of the second cloud is the cloud's point 256 t + q. -/
theorem qtsBlk_apply (c : Dev nD) (t : Fin cfg0.N) (b : Fin 8) (q : Fin 256) (d : Fin 2) (h : t.val * 256 + q.val < 2048) :
    qtsBlk m c t (ix3 b q d) = qtsArr m c (ix3 b ⟨t.val * 256 + q.val, h⟩ d) := by
  obtain ⟨-, -, -, e0, e1, e2, -⟩ := idx_facts t
  unfold qtsBlk iblk
  rw [View.read_apply]
  show V m c main_arg1 _ = V m c main_arg1 _
  congr 1
  funext a
  apply Fin.ext
  match a with
  | ⟨0, _⟩ => show win0_1.index t (0 : Fin 3) * 8 + 1 * b.val = b.val; omega
  | ⟨1, _⟩ => show win0_1.index t (1 : Fin 3) * 256 + 1 * q.val = t.val * 256 + q.val; omega
  | ⟨2, _⟩ => show win0_1.index t (2 : Fin 3) * 2 + 1 * d.val = d.val; omega

/-! ## What the two output blocks hold after each grid point -/

/-- Point q of block t of a cloud of 2048 = 8 * 256 points. -/
def blkPt (t : Fin cfg0.N) (q : Fin 256) : Fin 2048 :=
  ⟨t.val * 256 + q.val, by
    have := lt_of_lt_of_eq t.isLt (show cfg0.N = 8 from N_0); have := q.isLt; omega⟩

/-- A grid point's distance of point n and point q of its block is the clouds' distance of n and point q of block t. -/
theorem blkDist_eq (c : Dev nD) (t : Fin cfg0.N) (b : Fin 8) (n : Fin 2048) (q : Fin 256) :
    blkDist (ptsBlk m c t) (qtsBlk m c t) b n q = Chamfer.dist (ptsArr m c) (qtsArr m c) b n (blkPt t q) := by
  unfold blkDist Chamfer.dist
  rw [ptsBlk_eq m c t, qtsBlk_apply m c t b q 0 (blkPt t q).isLt, qtsBlk_apply m c t b q 1 (blkPt t q).isLt]
  rfl

/-- After grid point n the carried block holds, at (b, p), the infimum of the distances from p to the points of the
    second cloud below (n + 1) * 256. -/
theorem found_eq (c : Dev nD) : ∀ (n : ℕ) (h : n < cfg0.N),
    (outsAt0 m c n h).1 = fun j => (below ((n + 1) * 256)).inf fun mm : Fin 2048 => Chamfer.dist (ptsArr m c) (qtsArr m c) (j 0) (j 1) mm
  | 0, h => by
    rw [outsAt0_A m c ⟨0, h⟩ rfl]
    dsimp only
    refine (outA_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (ptsBlk m c ⟨0, h⟩) (qtsBlk m c ⟨0, h⟩)).trans ?_
    funext j
    rw [inf_below_succ 256 0 (by norm_num), inf_below_zero, min_top_left]
    exact congrArg (Finset.univ.inf) (funext fun q => blkDist_eq m c ⟨0, h⟩ (j 0) (j 1) q)
  | n + 1, h => by
    have hN : n + 1 < 8 := lt_of_lt_of_eq h (show cfg0.N = 8 from N_0)
    have hB : ¬(⟨n + 1, h⟩ : Fin cfg0.N).val % 8 = 0 := by dsimp only; omega
    rw [outsAt0_B m c ⟨n + 1, h⟩ hB]
    dsimp only
    refine (outB_2 c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hB ((hcond0_0 ⟨n + 1, h⟩).mp hh))
      (ptsBlk m c ⟨n + 1, h⟩) (qtsBlk m c ⟨n + 1, h⟩) (outsAt0 m c n (Nat.lt_of_succ_lt h)).1).trans ?_
    funext j
    rw [found_eq c n (Nat.lt_of_succ_lt h), inf_below_succ 256 (n + 1) (by omega)]
    exact congrArg (min _) (congrArg (Finset.univ.inf) (funext fun q => blkDist_eq m c ⟨n + 1, h⟩ (j 0) (j 1) q))

/-- After grid point t the block of the second cloud's nearest distances holds, at (b, q), the infimum over the whole
    first cloud of the distances to point q of block t. -/
theorem nearBlk_eq (c : Dev nD) (t : Fin cfg0.N) :
    (outsAt0 m c t.val t.isLt).2 = fun j => Finset.univ.inf fun n : Fin 2048 => Chamfer.dist (ptsArr m c) (qtsArr m c) (j 0) n (blkPt t (j 1)) := by
  by_cases h0 : t.val % 8 = 0
  · rw [outsAt0_A m c t h0]
    dsimp only
    refine (outA_3 c (grid0.coords t) (ms0_0 t) (hs0_0 t) (ms0_1 t) (hs0_1 t) (ms0_2 t) (hs0_2 t) (ms0_3 t) (hs0_3 t)
      ((hcond0_0 t).mpr h0) (ptsBlk m c t) (qtsBlk m c t)).trans ?_
    funext j
    exact congrArg (Finset.univ.inf) (funext fun n => blkDist_eq m c t (j 0) n (j 1))
  · rw [outsAt0_B m c t h0]
    dsimp only
    refine (outB_3 c (grid0.coords t) (ms0_0 t) (hs0_0 t) (ms0_1 t) (hs0_1 t) (ms0_2 t) (hs0_2 t) (ms0_3 t) (hs0_3 t)
      (fun hh => h0 ((hcond0_0 t).mp hh)) (ptsBlk m c t) (qtsBlk m c t)
      (outsAt0 m c (t.val - 1) (Nat.lt_of_le_of_lt (Nat.sub_le _ _) t.isLt)).1).trans ?_
    funext j
    exact congrArg (Finset.univ.inf) (funext fun n => blkDist_eq m c t (j 0) n (j 1))

/-! ## The two result arrays after the run -/

/-- The first cloud's nearest distances, as contents of the kernel's first result array. -/
abbrev nearPArr (c : Dev nD) : Buf (Elt Ideal) ((c : Thread nD τ).loc main_v0_0) := nearP (ptsArr m c) (qtsArr m c)
/-- The second cloud's nearest distances, as contents of the kernel's second result array. -/
abbrev nearQArr (c : Dev nD) : Buf (Elt Ideal) ((c : Thread nD τ).loc main_v0_1) := nearQ (ptsArr m c) (qtsArr m c)

/-- The carried block is written back once, after the last grid point, when it holds the infimum over all 2048
    points of the second cloud: the block is the whole array. -/
theorem flushedP_eq (c : Dev nD) (t : Fin cfg0.N) (hf : (cfg0.win 2).flush t = true) :
    (dats m 0 c).flushed 2 t = ((cfg0.win 2).blk t).view.read (Elt Ideal) (nearPArr m c) := by
  have hN : t.val < 8 := lt_of_lt_of_eq t.isLt (show cfg0.N = 8 from N_0)
  have h7 : t.val = 7 := by have := (flush0_2 t).mp hf; omega
  obtain ⟨-, -, -, -, -, -, e0, e1, -⟩ := idx_facts t
  show (cfg0.win 2).cut (grid0.coords t) ((dats m 0 c).after 2 t) = _
  rw [after0_2, found_eq m c t.val t.isLt]
  funext j
  rw [View.read_apply]
  show (below ((t.val + 1) * 256)).inf (fun mm : Fin 2048 => Chamfer.dist (ptsArr m c) (qtsArr m c) (j 0) (j 1) mm)
    = nearP (ptsArr m c) (qtsArr m c) (((cfg0.win 2).blk t).view.emb j)
  have hj : ((cfg0.win 2).blk t).view.emb j = j := by
    funext a
    apply Fin.ext
    match a with
    | ⟨0, _⟩ => show win0_2.index t (0 : Fin 2) * 8 + 1 * (j 0).val = (j 0).val; omega
    | ⟨1, _⟩ => show win0_2.index t (1 : Fin 2) * 2048 + 1 * (j 1).val = (j 1).val; omega
  rw [hj, show (t.val + 1) * 256 = 2048 by omega, inf_below_all]
  rfl

/-- Every grid point writes its block of the second cloud's nearest distances back: block t of the array. -/
theorem flushedQ_eq (c : Dev nD) (t : Fin cfg0.N) :
    (dats m 0 c).flushed 3 t = ((cfg0.win 3).blk t).view.read (Elt Ideal) (nearQArr m c) := by
  obtain ⟨-, -, -, -, -, -, -, -, e0, e1⟩ := idx_facts t
  show (cfg0.win 3).cut (grid0.coords t) ((dats m 0 c).after 3 t) = _
  rw [after0_3, nearBlk_eq m c t]
  funext j
  rw [View.read_apply]
  show (Finset.univ.inf fun n : Fin 2048 => Chamfer.dist (ptsArr m c) (qtsArr m c) (j 0) n (blkPt t (j 1)))
    = nearQ (ptsArr m c) (qtsArr m c) (((cfg0.win 3).blk t).view.emb j)
  have hj : ((cfg0.win 3).blk t).view.emb j = ix2 (j 0) (blkPt t (j 1)) := by
    funext a
    apply Fin.ext
    match a with
    | ⟨0, _⟩ => show win0_3.index t (0 : Fin 2) * 8 + 1 * (j 0).val = (j 0).val; omega
    | ⟨1, _⟩ => show win0_3.index t (1 : Fin 2) * 256 + 1 * (j 1).val = t.val * 256 + (j 1).val; omega
  rw [hj]
  rfl

/-- An index of the first result array is in a grid point's block iff each coordinate is in the block's range. -/
theorem mem_blkP (t : Fin cfg0.N) (i : S8x2048.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_v0_0).slice (win0_2.rect t)).set ↔ _
  rw [View.set_slice_whole, Rect.mem_set_unit]
  exact Iff.rfl

/-- The same for the second result array, whose blocks are 256 columns wide. -/
theorem mem_blkQ (t : Fin cfg0.N) (i : S8x2048.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v0_1).slice (win0_3.rect t)).set ↔ _
  rw [View.set_slice_whole, Rect.mem_set_unit]
  exact Iff.rfl

/-- After the run the first result array holds the first cloud's nearest distances: the last grid point's block
    covers it. -/
theorem finalP (c : Dev nD) : (dats m 0 c).arrAt 2 cfg0.N = nearPArr m c :=
  (dats m 0 c).arrAt_eq_of_cover 2 (nearPArr m c) (flushedP_eq m c) fun i => by
    have h7 : 7 < cfg0.N := by rw [show cfg0.N = 8 from N_0]; decide
    refine ⟨⟨7, h7⟩, (flush0_2 ⟨7, h7⟩).mpr rfl, ?_⟩
    obtain ⟨-, -, -, -, -, -, e0, e1, -⟩ := idx_facts ⟨7, h7⟩
    rw [mem_blkP]
    intro a
    have h0 : (i 0 : Nat) < 8 := (i 0).isLt
    have h1 : (i 1 : Nat) < 2048 := (i 1).isLt
    match a with
    | ⟨0, _⟩ => show win0_2.index ⟨7, h7⟩ (0 : Fin 2) * 8 ≤ (i 0).val ∧ (i 0).val < win0_2.index ⟨7, h7⟩ (0 : Fin 2) * 8 + 8; omega
    | ⟨1, _⟩ => show win0_2.index ⟨7, h7⟩ (1 : Fin 2) * 2048 ≤ (i 1).val ∧ (i 1).val < win0_2.index ⟨7, h7⟩ (1 : Fin 2) * 2048 + 2048; omega

/-- After the run the second result array holds the second cloud's nearest distances: column mm lies in the block of
    grid point mm / 256. -/
theorem finalQ (c : Dev nD) : (dats m 0 c).arrAt 3 cfg0.N = nearQArr m c :=
  (dats m 0 c).arrAt_eq_of_cover 3 (nearQArr m c) (fun t _ => flushedQ_eq m c t) fun i => by
    have h0 : (i 0 : Nat) < 8 := (i 0).isLt
    have h1 : (i 1 : Nat) < 2048 := (i 1).isLt
    have ht : (i 1).val / 256 < cfg0.N := by rw [show cfg0.N = 8 from N_0]; omega
    refine ⟨⟨(i 1).val / 256, ht⟩, flush0_3 _, ?_⟩
    obtain ⟨-, -, -, -, -, -, -, -, e0, e1⟩ := idx_facts ⟨(i 1).val / 256, ht⟩
    rw [mem_blkQ]
    intro a
    match a with
    | ⟨0, _⟩ => show win0_3.index ⟨(i 1).val / 256, ht⟩ (0 : Fin 2) * 8 ≤ (i 0).val ∧ (i 0).val < win0_3.index ⟨(i 1).val / 256, ht⟩ (0 : Fin 2) * 8 + 8; omega
    | ⟨1, _⟩ => show win0_3.index ⟨(i 1).val / 256, ht⟩ (1 : Fin 2) * 256 ≤ (i 1).val ∧ (i 1).val < win0_3.index ⟨(i 1).val / 256, ht⟩ (1 : Fin 2) * 256 + 256; rw [e1]; dsimp only; omega

/-! ## The loss -/

/-- The eighteen host operations after the kernel turn the two arrays of nearest distances into the loss. -/
theorem tail_eq (c : Dev nD) :
    Pipeline.afterTail₀ cfgs (dats m) 0 (V0 m) [hostOps1] c main_v11
      = lossTimesHalf (F := Ideal) reducesTo_S8x2048_S8_d1 h_S_ bcast_S_S8 reducesTo_S8_S_d0
          (nearP (ptsArr m c) (qtsArr m c)) (nearQ (ptsArr m c) (qtsArr m c)) := by
  have eP : Pipeline.withArrays (cfgs 0).spec c (V0 m c) (fun w => (dats m 0 c).arrAt w (cfgs 0).N)
      (Proc.devRef .tc main_v0_0) = nearPArr m c :=
    (Pipeline.withArrays_arr spec0 launch0.win.arr_inj c _ _ 2).trans (finalP m c)
  have eQ : Pipeline.withArrays (cfgs 0).spec c (V0 m c) (fun w => (dats m 0 c).arrAt w (cfgs 0).N)
      (Proc.devRef .tc main_v0_1) = nearQArr m c :=
    (Pipeline.withArrays_arr spec0 launch0.win.arr_inj c _ _ 3).trans (finalQ m c)
  unfold Pipeline.afterTail₀
  show StableHlo.after hostOps1 _ (Proc.devRef .tc main_v11) = _
  after_results
  rw [eP, eQ]
  rfl

end

/-- Every weakly fair execution of the kernel's program ends with the loss of the two clouds' nearest distances, the
    halving spelt as a product, and with the clouds unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
        = lossTimesHalf (F := Ideal) reducesTo_S8x2048_S8_d1 h_S_ bcast_S_S8 reducesTo_S8_S_d0
            (nearP (m ((c.tc : Thread nD τ).loc main_arg0)) (m ((c.tc : Thread nD τ).loc main_arg1)))
            (nearQ (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Chamfer

end
-- ==== Proof.RefValue.lean ====
/-
  The reference program's two arrays of nearest distances are the functions of the specification: its distance matrix
  is sqrt (0 + sum over the two coordinates of the squared differences), and each of its two minimum-reductions, from
  +infinity along one axis of the matrix, is the infimum over that axis.
-/
import proofs.«144641_j11544872092235_1_alg».proof.Proof.Gen.ReferenceIdeal.Read
import proofs.«144641_j11544872092235_1_alg».proof.Proof.Spec
import Idealize.ShloMosaic.PureOps.Ideal.Laws

noncomputable section

namespace Cert.ReferenceIdeal.Chamfer

open Idealize.ShloMosaic Idealize.ShloMosaic.ValueIdx Cert.ReferenceIdeal Cert.ReferenceIdeal.Gen Cert.ReferenceIdeal.Read Cert.Chamfer

/-- One entry of the reference's distance matrix: at (b, n, m) it is the distance of point n of the first cloud and
    point m of the second in batch entry b.  The sum over the two coordinates starts from zero, which adds nothing. -/
theorem v7_at (x0 x1 : (⟨S8x2048x2, .f32⟩ : BufTy).Contents (Elt Ideal)) (b : Fin 8) (n m : Fin 2048) :
    val_main_v7 (F := Ideal) x0 x1 (ix3 b n m) = dist x0 x1 b n m := by
  -- through the two broadcasts, entry (b, n, m, c) of the difference reads P at (b, n, c) and Q at (b, m, c)
  have eP0 : idx_main_v0 (idx_main_v2 (idx_main_v6 (ix3 b n m) 0)) = ix3 b n 0 :=
    funext fun a => Fin.ext (by match a with | ⟨0, _⟩ => rfl | ⟨1, _⟩ => rfl | ⟨2, _⟩ => rfl)
  have eP1 : idx_main_v0 (idx_main_v2 (idx_main_v6 (ix3 b n m) 1)) = ix3 b n 1 :=
    funext fun a => Fin.ext (by match a with | ⟨0, _⟩ => rfl | ⟨1, _⟩ => rfl | ⟨2, _⟩ => rfl)
  have eQ0 : idx_main_v1 (idx_main_v3 (idx_main_v6 (ix3 b n m) 0)) = ix3 b m 0 :=
    funext fun a => Fin.ext (by match a with | ⟨0, _⟩ => rfl | ⟨1, _⟩ => rfl | ⟨2, _⟩ => rfl)
  have eQ1 : idx_main_v1 (idx_main_v3 (idx_main_v6 (ix3 b n m) 1)) = ix3 b m 1 :=
    funext fun a => Fin.ext (by match a with | ⟨0, _⟩ => rfl | ⟨1, _⟩ => rfl | ⟨2, _⟩ => rfl)
  rw [val_main_v7_apply, val_main_v6_apply, Fin.sum_univ_two]
  simp only [val_main_cst_apply, val_main_v5_apply, val_main_v4_apply, val_main_v3_apply, val_main_v2_apply,
    val_main_v1_apply, val_main_v0_apply, eP0, eP1, eQ0, eQ1]
  simp only [Ideal.hostUnary_sqrt_def, Ideal.ofBits_def, Ideal.ofBits_zero_f32, Ideal.mulf_def, Ideal.subf_def]
  show Ideal.sqrt ((0 : EReal) + _) = _
  rw [zero_add]
  rfl

/-- The index of the matrix over the result's index j with coordinate k put on the last axis is (j 0, j 1, k). -/
theorem lift2 (h : S8x2048x2048.Reduces [2] S8x2048) (j : S8x2048.Idx) (k : Fin 2048) :
    h.lift j k = ix3 (j 0) (j 1) k :=
  funext fun a => Fin.ext (by match a with | ⟨0, _⟩ => rfl | ⟨1, _⟩ => rfl | ⟨2, _⟩ => rfl)

/-- The index of the matrix over the result's index j with coordinate k put on the middle axis is (j 0, k, j 1). -/
theorem lift1 (h : S8x2048x2048.Reduces [1] S8x2048) (j : S8x2048.Idx) (k : Fin 2048) :
    h.lift j k = ix3 (j 0) k (j 1) :=
  funext fun a => Fin.ext (by match a with | ⟨0, _⟩ => rfl | ⟨1, _⟩ => rfl | ⟨2, _⟩ => rfl)

/-- The reference's minimum over the second cloud's points is nearP. -/
theorem ref_nearP (x0 x1 : (⟨S8x2048x2, .f32⟩ : BufTy).Contents (Elt Ideal)) :
    val_main_v8 (F := Ideal) x0 x1 = nearP x0 x1 := by
  funext j
  unfold val_main_v8
  have h : S8x2048x2048.Reduces [2] S8x2048 := by decide
  -- a minimum-reduction along one axis is the fold of min, from the initial value, over that axis's coordinates
  rw [Host.reduce_eq_fold_single _ _ _ reducesTo_S8x2048x2048_S8x2048_d2 h h_S_ j]
  -- the initial value is +infinity, the top element, so the fold is the infimum
  rw [val_main_cst_0_apply, Ideal.ofBits_def, ofBits_posInf]
  show _ = Finset.univ.inf fun m : Fin 2048 => dist x0 x1 (j 0) (j 1) m
  refine (fold_min_top _ _).trans ?_
  refine Finset.inf_congr rfl fun k _ => ?_
  show val_main_v7 (F := Ideal) x0 x1 (h.lift j k) = dist x0 x1 (j 0) (j 1) k
  rw [lift2 h j k]
  exact v7_at x0 x1 (j 0) (j 1) k

/-- The reference's minimum over the first cloud's points is nearQ. -/
theorem ref_nearQ (x0 x1 : (⟨S8x2048x2, .f32⟩ : BufTy).Contents (Elt Ideal)) :
    val_main_v9 (F := Ideal) x0 x1 = nearQ x0 x1 := by
  funext j
  unfold val_main_v9
  have h : S8x2048x2048.Reduces [1] S8x2048 := by decide
  -- a minimum-reduction along one axis is the fold of min, from the initial value, over that axis's coordinates
  rw [Host.reduce_eq_fold_single _ _ _ reducesTo_S8x2048x2048_S8x2048_d1 h h_S_ j]
  -- the initial value is +infinity, the top element, so the fold is the infimum
  rw [val_main_cst_1_apply, Ideal.ofBits_def, ofBits_posInf]
  show _ = Finset.univ.inf fun n : Fin 2048 => dist x0 x1 (j 0) n (j 1)
  refine (fold_min_top _ _).trans ?_
  refine Finset.inf_congr rfl fun k _ => ?_
  show val_main_v7 (F := Ideal) x0 x1 (h.lift j k) = dist x0 x1 (j 0) k (j 1)
  rw [lift1 h j k]
  exact v7_at x0 x1 (j 0) k (j 1)

end Cert.ReferenceIdeal.Chamfer

end
-- ==== Proof.Tail.lean ====
/-
  Halving by a product with one half and halving by a quotient by two are one function on the extended reals, so the
  two spellings of the loss agree on every pair of arrays.
-/
import proofs.«144641_j11544872092235_1_alg».proof.Proof.TailDefs
import Idealize.ShloMosaic.PureOps.Ideal.Laws

noncomputable section

namespace Cert.Chamfer

open Idealize.ShloMosaic

/-- The f32 pattern 0x3F000000 (sign 0, exponent 126, significand 0) denotes the real one half. -/
theorem ofBits_half : Ideal.ofBits .f32 0x3F000000#32 = ((1 / 2 : ℝ) : EReal) := by
  simp [Ideal.ofBits, Ideal.ieee, -EReal.coe_mul]; norm_num

/-- The f32 pattern 0x40000000 (sign 0, exponent 128, significand 0) denotes the real two. -/
theorem ofBits_two : Ideal.ofBits .f32 0x40000000#32 = ((2 : ℝ) : EReal) := by
  simp [Ideal.ofBits, Ideal.ieee, -EReal.coe_mul]; norm_num

/-- Entry by entry, the product with one half is the quotient by two.  Division by a nonzero real is the product with
    its reciprocal for EVERY extended real, the two infinities included, so nothing is asked of the entries. -/
theorem halve_eq (hb : Sc.BroadcastsInDim Row (![] : Fin 0 → Fin Row.rank)) (M : FVec Ideal Row .f32) :
    mulf (F := Ideal) M (broadcastInDim Row ![] hb (constant (F := Ideal) Sc .f32 0x3F000000#32))
      = Host.divf (F := Ideal) M (broadcastInDim Row ![] hb (constant (F := Ideal) Sc .f32 0x40000000#32)) := by
  funext i
  -- a broadcast scalar constant reads as the constant at every entry
  show (M i) * Ideal.ofBits .f32 0x3F000000#32 = Ideal.div (M i) (Ideal.ofBits .f32 0x40000000#32)
  rw [ofBits_half, ofBits_two, Ideal.div_coe (by norm_num : (2 : ℝ) ≠ 0)]

theorem loss_halving (h1 : Mat.ReducesTo [1] Row) (h0 : 0 < Sc.numel) (hb : Sc.BroadcastsInDim Row (![] : Fin 0 → Fin Row.rank))
    (h2 : Row.ReducesTo [0] Sc) (X Y : FVec Ideal Mat .f32) :
    lossTimesHalf (F := Ideal) h1 h0 hb h2 X Y = lossOverTwo (F := Ideal) h1 h0 hb h2 X Y := by
  -- the two losses are the same function of the halved vector
  unfold lossTimesHalf lossOverTwo
  rw [halve_eq hb (meanSum (F := Ideal) h1 h0 hb X Y)]

end Cert.Chamfer

end
-- ==== Proof.lean ====
/-
  The Chamfer loss of two clouds of 2048 plane points, for a batch of 8: the kernel against its reference, over the
  extended reals.

  Both programs compute, for every point of each cloud, the distance to the nearest point of the other cloud
  (Spec: nearP, nearQ), then the mean over each cloud's points, the two means added and halved, and the mean over the
  batch.  The reference materialises the 2048 × 2048 matrix of distances per batch entry and reduces it along each
  axis by a minimum from +infinity (RefValue).  The kernel never forms the matrix: its grid walks the second cloud in
  eight blocks of 256 points and, inside a grid point, the first cloud in four chunks of 512 points; a 512 × 256 tile of
  distances is reduced along both axes at once (Payload), the row infima into a block of running nearest distances that
  is carried from grid point to grid point, the column infima into the block's own nearest distances (Body, Grid).
  A minimum is commutative, associative and idempotent and +infinity is its neutral element, so the order and the
  grouping of the blocks do not matter: the infimum over 2048 indices is the running minimum of the infima over its
  blocks (Spec: inf_below_succ).  The last difference is the halving, a product with 1/2 in the kernel and a quotient
  by 2 in the reference: one function on every extended real (Tail).  No step needs the inputs to be finite.
-/
import proofs.«144641_j11544872092235_1_alg».proof.Defs
import proofs.«144641_j11544872092235_1_alg».proof.Proof.Gen.Kernel
import proofs.«144641_j11544872092235_1_alg».proof.Proof.Gen.Kernel.Frame
import proofs.«144641_j11544872092235_1_alg».proof.Proof.Gen.KernelIdeal
import proofs.«144641_j11544872092235_1_alg».proof.Proof.Gen.KernelIdeal.Frame
import proofs.«144641_j11544872092235_1_alg».proof.Proof.Gen.ReferenceIdeal
import proofs.«144641_j11544872092235_1_alg».proof.Proof.Gen.Pre_finite_inputs
import proofs.«144641_j11544872092235_1_alg».proof.Proof.Gen.ReferenceIdeal.Run
import proofs.«144641_j11544872092235_1_alg».proof.Proof.Gen.ReferenceIdeal.Read
import proofs.«144641_j11544872092235_1_alg».proof.Proof.Grid
import proofs.«144641_j11544872092235_1_alg».proof.Proof.RefValue
import proofs.«144641_j11544872092235_1_alg».proof.Proof.Tail
import Idealize.ShloMosaic.Adequacy
import Idealize.ShloMosaic.Init

noncomputable section

namespace Cert.Proof

open Idealize.ShloMosaic Idealize.ShloMosaic.TcCoe Idealize.SL.Sem Cert.Chamfer

/-- The reference's result is the loss of its two arrays of nearest distances, the halving spelt as a quotient. -/
theorem ref_loss (x0 x1 : (⟨Cert.ReferenceIdeal.S8x2048x2, .f32⟩ : BufTy).Contents (Elt Ideal)) :
    Cert.ReferenceIdeal.Read.val_main_v20 (F := Ideal) x0 x1
      = lossOverTwo (F := Ideal) Cert.ReferenceIdeal.Facts₀.reducesTo_S8x2048_S8_d1 Cert.ReferenceIdeal.Facts₀.h_S_
          Cert.ReferenceIdeal.Facts₀.bcast_S_S8 Cert.ReferenceIdeal.Facts₀.reducesTo_S8_S_d0 (nearP x0 x1) (nearQ x0 x1) := by
  rw [← Cert.ReferenceIdeal.Chamfer.ref_nearP, ← Cert.ReferenceIdeal.Chamfer.ref_nearQ]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with one loss: the kernel's run ends with the loss of nearP and nearQ with the
    halving spelt as a product, the reference's with the same arrays and the halving spelt as a quotient. -/
theorem algebraic : Cert.algebraic_KernelIdeal_ReferenceIdeal := by
  intro m ρ m' ρ' _ hagree
  refine ⟨_, Cert.KernelIdeal.Chamfer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq, ref_loss]
  exact (loss_halving _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
